-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩
abbrev S5000x128 : Shape := ⟨2, ![5000, 128]⟩
abbrev S1x1 : Shape := ⟨2, ![1, 1]⟩

abbrev nBuf : Space → Nat
  | .hbm => 66
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .f32⟩
  | .hbm, ⟨15, _⟩ => ⟨S640000, .f32⟩
  | .hbm, ⟨16, _⟩ => ⟨S_, .f32⟩
  | .hbm, ⟨17, _⟩ => ⟨S100000, .f32⟩
  | .hbm, ⟨18, _⟩ => ⟨S640000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S_, .f32⟩
  | .hbm, ⟨34, _⟩ => ⟨S100000x128, .f32⟩
  | .hbm, ⟨35, _⟩ => ⟨S640000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S_, .f32⟩
  | .hbm, ⟨51, _⟩ => ⟨S100000x128, .f32⟩
  | .hbm, ⟨52, _⟩ => ⟨S640000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S_, .f32⟩
  | .hbm, ⟨58, _⟩ => ⟨S128x128, .f32⟩
  | .hbm, ⟨59, _⟩ => ⟨S1x1, .f32⟩
  | .hbm, ⟨60, _⟩ => ⟨S_, .i32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S100000x128, .f32⟩
  | .hbm, ⟨65, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_call0_v0 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_call1_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  pads_S128x1_S128x128_000_01270 : S128x1.Pads (![0, 0] : Fin 2 → Nat) ![0, 127] ![0, 0] S128x128
  h_S_ : 0 < S_.numel
  shapeCasts_S1_S1x1 : S1.ShapeCasts S1x1
  pads_S1x1_S1x128_000_01270 : S1x1.Pads (![0, 0] : Fin 2 → Nat) ![0, 127] ![0, 0] S1x128
  shapeCasts_S128x128_S128x128 : S128x128.ShapeCasts S128x128
  slices_S100000x128_S100000x1_0_0 : S100000x128.Slices ![0, 0] S100000x1
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S100000x128, .f32⟩
  | .hbm, ⟨25, _⟩ => ⟨S640000x1, .i32⟩
  | .hbm, ⟨26, _⟩ => ⟨S100000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S100000, .f32⟩
  | .hbm, ⟨31, _⟩ => ⟨S640000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S1x640000, .i32⟩
  | .hbm, ⟨49, _⟩ => ⟨S640000, .i32⟩
  | .hbm, ⟨50, _⟩ => ⟨S1x640000, .i32⟩
  | .hbm, ⟨51, _⟩ => ⟨S640000, .i32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x128, .f32⟩
  | .hbm, ⟨61, _⟩ => ⟨S_, .f32⟩
  | .hbm, ⟨62, _⟩ => ⟨S100000x128, .f32⟩
  | .hbm, ⟨63, _⟩ => ⟨S640000x1, .i32⟩
  | .hbm, ⟨64, _⟩ => ⟨S100000x128, .f32⟩
  | .hbm, ⟨65, _⟩ => ⟨S_, .f32⟩
  | .hbm, ⟨66, _⟩ => ⟨S640000, .f32⟩
  | .hbm, ⟨67, _⟩ => ⟨S_, .f32⟩
  | .hbm, ⟨68, _⟩ => ⟨S100000, .f32⟩
  | .hbm, ⟨69, _⟩ => ⟨S640000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x1, .f32⟩
  | .hbm, ⟨87, _⟩ => ⟨S1x1, .f32⟩
  | .hbm, ⟨88, _⟩ => ⟨S100000x1, .f32⟩
  | .hbm, ⟨89, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.SageLayer.lean ====
/-
  One graph-convolution layer over the extended reals, and the final column.

  A layer takes the neighbourhood means A (one row per node), the nodes' own features X, two weight matrices and a
  bias row, and returns, at node p and output feature q,

      max ( Σ_c A(p, c) · Wl(c, q)  +  Σ_c X(p, c) · Wr(c, q)  +  b(q) ,  0 ).

  The three summands may be added in either order: addition on the extended reals is commutative and associative
  also at the infinities, so no entry is asked to be finite anywhere in this file. One program adds the bias last,
  the other adds it between the two products (`layerEntry_bias_between`).

  Row p of a layer depends on row p of A and of X only, so a block of consecutive rows of the layer is the layer of
  those rows of A and X (`layerEntry_rows`).

  The final column is, at node p, Σ_c H(p, c) · w(c) + β. A program may compute it as column 0 of a product with a
  matrix whose column 0 is w, adding a row whose entry 0 is β: only column 0 of that matrix and entry 0 of that row are
  ever read (`entry_column_zero`).
-/
import proofs.«175081_j81681688035648_1_alg».proof.Proof.LibSideBySide

noncomputable section

namespace Sage

open Idealize.ShloMosaic Idealize.ShloMosaic.ValueIdx SideBySide

variable {n : Nat}

/-- Entry (p, q) of one layer, the bias added last. -/
def layerEntry (A X : (⟨2, ![n, 128]⟩ : Shape).Idx → EReal) (Wl Wr : (⟨2, ![128, 128]⟩ : Shape).Idx → EReal)
    (b : Fin 128 → EReal) (p : Fin n) (q : Fin 128) : EReal :=
  max (entry A Wl p q + entry X Wr p q + b q) 0

/-- One layer as an array. -/
def layer (A X : (⟨2, ![n, 128]⟩ : Shape).Idx → EReal) (Wl Wr : (⟨2, ![128, 128]⟩ : Shape).Idx → EReal)
    (b : Fin 128 → EReal) : (⟨2, ![n, 128]⟩ : Shape).Idx → EReal :=
  fun j => layerEntry A X Wl Wr b (j 0) (j 1)

theorem layer_apply (A X : (⟨2, ![n, 128]⟩ : Shape).Idx → EReal) (Wl Wr : (⟨2, ![128, 128]⟩ : Shape).Idx → EReal)
    (b : Fin 128 → EReal) (p : Fin n) (q : Fin 128) :
    layer A X Wl Wr b (ix2 p q) = layerEntry A X Wl Wr b p q := rfl

/-- The same entry with the bias added between the two products. -/
theorem layerEntry_bias_between (A X : (⟨2, ![n, 128]⟩ : Shape).Idx → EReal)
    (Wl Wr : (⟨2, ![128, 128]⟩ : Shape).Idx → EReal) (b : Fin 128 → EReal) (p : Fin n) (q : Fin 128) :
    max (entry A Wl p q + b q + entry X Wr p q) 0 = layerEntry A X Wl Wr b p q := by
  unfold layerEntry
  rw [add_right_comm]

/-- A product's entry depends on one row of its left factor. -/
theorem entry_rows {N k w : Nat} (A : (⟨2, ![N, k]⟩ : Shape).Idx → EReal) (a : (⟨2, ![n, k]⟩ : Shape).Idx → EReal)
    (B : (⟨2, ![k, w]⟩ : Shape).Idx → EReal) (p : Fin n) (P : Fin N)
    (h : ∀ c : Fin k, a (ix2 p c) = A (ix2 P c)) (q : Fin w) : entry a B p q = entry A B P q := by
  unfold entry
  exact Finset.sum_congr rfl fun c _ => by rw [h]

/-- Rows of a layer are the layer of the rows: with a and x rows of A and X (local row p is row P), the entries
    agree. -/
theorem layerEntry_rows {N : Nat} (A X : (⟨2, ![N, 128]⟩ : Shape).Idx → EReal) (a x : (⟨2, ![n, 128]⟩ : Shape).Idx → EReal)
    (Wl Wr : (⟨2, ![128, 128]⟩ : Shape).Idx → EReal) (b : Fin 128 → EReal) (p : Fin n) (P : Fin N)
    (ha : ∀ c : Fin 128, a (ix2 p c) = A (ix2 P c)) (hx : ∀ c : Fin 128, x (ix2 p c) = X (ix2 P c)) (q : Fin 128) :
    layerEntry a x Wl Wr b p q = layerEntry A X Wl Wr b P q := by
  unfold layerEntry
  rw [entry_rows A a Wl p P ha q, entry_rows X x Wr p P hx q]

/-- A product's entry read through blocks: local row p of the left factor is row P, local column q of the right factor is
    column Q. -/
theorem entry_blocks {N k w w' : Nat} (A : (⟨2, ![N, k]⟩ : Shape).Idx → EReal) (a : (⟨2, ![n, k]⟩ : Shape).Idx → EReal)
    (B : (⟨2, ![k, w]⟩ : Shape).Idx → EReal) (β : (⟨2, ![k, w']⟩ : Shape).Idx → EReal) (p : Fin n) (P : Fin N)
    (q : Fin w') (Q : Fin w) (ha : ∀ c : Fin k, a (ix2 p c) = A (ix2 P c)) (hb : ∀ c : Fin k, β (ix2 c q) = B (ix2 c Q)) :
    entry a β p q = entry A B P Q := by
  unfold entry
  exact Finset.sum_congr rfl fun c _ => by rw [ha c, hb c]

/-- The layer's entry read through blocks: local row p of a and x is row P of A and X, local column q of the weights and the
    bias is column Q of theirs. -/
theorem layerEntry_blocks {N : Nat} (A X : (⟨2, ![N, 128]⟩ : Shape).Idx → EReal) (a x : (⟨2, ![n, 128]⟩ : Shape).Idx → EReal)
    (Wl Wr wl wr : (⟨2, ![128, 128]⟩ : Shape).Idx → EReal) (b β : Fin 128 → EReal) (p : Fin n) (P : Fin N) (q Q : Fin 128)
    (ha : ∀ c : Fin 128, a (ix2 p c) = A (ix2 P c)) (hx : ∀ c : Fin 128, x (ix2 p c) = X (ix2 P c))
    (hl : ∀ c : Fin 128, wl (ix2 c q) = Wl (ix2 c Q)) (hr : ∀ c : Fin 128, wr (ix2 c q) = Wr (ix2 c Q))
    (hb : β q = b Q) :
    layerEntry a x wl wr β p q = layerEntry A X Wl Wr b P Q := by
  unfold layerEntry
  rw [entry_blocks A a Wl wl p P q Q ha hl, entry_blocks X x Wr wr p P q Q hx hr, hb]

/-- Column 0 of a product reads column 0 of the right factor only: if column 0 of the wide matrix is the one column of
    the narrow one, the entries agree. -/
theorem entry_column_zero {w : Nat} (H : (⟨2, ![n, 128]⟩ : Shape).Idx → EReal) (Wwide : (⟨2, ![128, w]⟩ : Shape).Idx → EReal)
    (Wcol : (⟨2, ![128, 1]⟩ : Shape).Idx → EReal) (z : Fin w) (h : ∀ c : Fin 128, Wwide (ix2 c z) = Wcol (ix2 c (0 : Fin 1)))
    (p : Fin n) : entry H Wwide p z = entry H Wcol p (0 : Fin 1) := by
  unfold entry
  exact Finset.sum_congr rfl fun c _ => by rw [h]

end Sage

end
-- ==== Proof.KernelBodies.lean ====
/-
  What each kernel body stores, read at an entry, at the ideal values.

  The first body loads a block of rows of the neighbourhood means (a), the same rows of the node features (x), both weight
  matrices and the bias as a one-row matrix, and stores, at local row p and feature q,

      max ( Σ_c a(p, c) · Wl(c, q) + Σ_c x(p, c) · Wr(c, q) + bias(0, q) , 0 ):

  the two products are formed on the matrix unit into zero blocks, which contribute nothing; the narrowing of the factors to
  a shorter float format is the identity on extended reals; the bias row is laid along every row of the block. That is the
  layer's entry on the blocks (`first_body_apply`).

  The second body forms the same layer h of its blocks and, without storing it, multiplies it by a third weight matrix U and
  adds a second one-row matrix β:  Σ_c h(p, c) · U(c, q) + β(0, q)  (`second_body_apply`).
-/
import proofs.«175081_j81681688035648_1_alg».proof.Proof.Gen.KernelIdeal.Skeleton
import proofs.«175081_j81681688035648_1_alg».proof.Proof.SageLayer
import Idealize.ShloMosaic.Lib.KernelVsHost
import Idealize.ShloMosaic.Lib.Pipeline.Value
import Idealize.ShloMosaic.Lib.ValueIdx

noncomputable section

namespace Cert.KernelIdeal.Bodies

open Cert.KernelIdeal Cert.KernelIdeal.Gen Idealize.ShloMosaic Idealize.ShloMosaic.ValueIdx SideBySide

/-- The entries of a one-row matrix. -/
def rowOf (b : Vec Ideal S1x128 .f32) : Fin 128 → EReal := fun q => b (ix2 (0 : Fin 1) q)

/-- The block product's dimension numbers are the plain rows-by-columns ones. -/
theorem dot_plain : dot_S5000x128_S128x128_S5000x128_1_0_0_1_n_n = DotDims.plain 5000 128 128 := rfl

/-- A one-row matrix laid along every row of a block, read at (p, q), is the row's entry q. -/
theorem row_down (b : Vec Ideal S1x128 .f32) (h : S1x128.Broadcasts S5000x128) (p : Fin 5000) (q : Fin 128) :
    broadcastTo S5000x128 b h (ix2 p q) = b (ix2 (0 : Fin 1) q) := by
  refine broadcastTo_apply b h (ix2 p q) (ix2 (0 : Fin 1) q) ?_
  intro a
  match a with
  | ⟨0, _⟩ => rfl
  | ⟨1, _⟩ => rfl

/-- The zero the body clips at is the real zero. -/
theorem clip_zero : (Scalar.ofBits (F := Ideal) .f32 0x00000000#32 : Ideal .f32) = 0 := Ideal.ofBits_zero_f32

/-- The layer as a body writes it — two products into zero blocks, the bias row laid along the rows, clipped at zero —
    read at (p, q), is the layer's entry. -/
theorem layer_term_apply (a x : Vec Ideal S5000x128 .f32) (Wl Wr : Vec Ideal S128x128 .f32) (b : Vec Ideal S1x128 .f32)
    (h1 : FTy.bf16.bits < FTy.f32.bits) (hb : S1x128.Broadcasts S5000x128) (p : Fin 5000) (q : Fin 128) :
    maximumf (addf (addf
        (matmul dot_S5000x128_S128x128_S5000x128_1_0_0_1_n_n none (truncf .bf16 a h1) (truncf .bf16 Wl h1)
          (constant S5000x128 .f32 0x00000000#32))
        (matmul dot_S5000x128_S128x128_S5000x128_1_0_0_1_n_n none (truncf .bf16 x h1) (truncf .bf16 Wr h1)
          (constant S5000x128 .f32 0x00000000#32)))
        (broadcastTo S5000x128 b hb)) (broadcast S5000x128 (Scalar.ofBits (F := Ideal) .f32 0x00000000#32)) (ix2 p q)
      = Sage.layerEntry a x Wl Wr (rowOf b) p q := by
  unfold Sage.layerEntry rowOf
  rw [maximumf_apply, addf_apply, addf_apply, kernelProduct_apply _ dot_plain, kernelProduct_apply _ dot_plain,
    row_down, broadcast_apply, clip_zero]
  rfl

/-- The first body's stored value at (p, q) is the layer's entry on its blocks. -/
theorem first_body_apply (a x : Vec Ideal S5000x128 .f32) (Wl Wr : Vec Ideal S128x128 .f32) (b : Vec Ideal S1x128 .f32)
    (p : Fin 5000) (q : Fin 128) :
    k0_pay1 (F := Ideal) a x Wl Wr b (ix2 p q) = Sage.layerEntry a x Wl Wr (rowOf b) p q := by
  unfold k0_pay1
  simp only [shapeCast_self]
  exact layer_term_apply a x Wl Wr b _ _ p q

/-- The second body's stored value at (p, q): the layer of its blocks times the third weight matrix, plus the second
    row. -/
theorem second_body_apply (a x : Vec Ideal S5000x128 .f32) (Wl Wr : Vec Ideal S128x128 .f32) (b : Vec Ideal S1x128 .f32)
    (U : Vec Ideal S128x128 .f32) (β : Vec Ideal S1x128 .f32) (p : Fin 5000) (q : Fin 128) :
    k1_pay1 (F := Ideal) a x Wl Wr b U β (ix2 p q)
      = entry (Sage.layer a x Wl Wr (rowOf b)) U p q + β (ix2 (0 : Fin 1) q) := by
  unfold k1_pay1
  simp only [shapeCast_self]
  rw [addf_apply, kernelProduct_apply _ dot_plain, row_down]
  refine congrArg (· + β (ix2 (0 : Fin 1) q)) ?_
  unfold entry
  refine Finset.sum_congr rfl fun c _ => ?_
  refine congrArg₂ (· * ·) ?_ rfl
  exact layer_term_apply a x Wl Wr b _ _ p c

end Cert.KernelIdeal.Bodies

end
-- ==== Proof.FirstRegion.lean ====
/-
  The first layer's array after its region.

  The region walks twenty blocks of 5000 consecutive rows. At block t it reads rows 5000·t … 5000·t + 4999 of the
  neighbourhood means and of the node features, the whole of both weight matrices and of the bias row, and writes the
  same rows of the result. Local row p of block t is row 5000·t + p, and a row of the layer depends on that row of the means and
  of the features only, so what block t writes back is rows 5000·t … of ONE array: the layer of the whole arrays
  (`written_back`). Row r lies in block r / 5000, so the twenty blocks cover the array (`covered`), and the array ends
  holding the layer (`layer_array`).
-/
import proofs.«175081_j81681688035648_1_alg».proof.Proof.Gen.KernelIdeal.Frame
import proofs.«175081_j81681688035648_1_alg».proof.Proof.KernelBodies

set_option maxRecDepth 16384

noncomputable section

namespace Cert.KernelIdeal.FirstRegion

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The layer of the arrays the region finds. -/
abbrev result (c : Dev nD) : Vec Ideal S100000x128 .f32 :=
  Sage.layer (V c main_v22) (V c main_arg0) (V c main_arg2) (V c main_arg4) (rowOf (V c main_v23))

/-- The index maps over the grid: the two row-blocked inputs move with the output along the rows, at column block 0; the
    weights and the bias row stay at block (0, 0); the output's row block is the point's number. -/
theorem index_maps : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the layer of the whole arrays. -/
theorem written_back (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  obtain ⟨e0r, e0c, e1r, e1c, e2r, e2c, e3r, e3c, e4r, e4c, e5r, e5c⟩ := index_maps t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
      = Sage.layerEntry (V c main_v22) (V c main_arg0) (V c main_arg2) (V c main_arg4) (rowOf (V c main_v23))
          ((((cfg0.win 5).blk t).view.emb (ix2 p q)) 0) ((((cfg0.win 5).blk t).view.emb (ix2 p q)) 1)
  refine (first_body_apply (iblk0 V c 0 t) (iblk0 V c 1 t) (iblk0 V c 2 t) (iblk0 V c 4 t) (iblk0 V c 3 t) p q).trans ?_
  refine Sage.layerEntry_blocks (V c main_v22) (V c main_arg0) (iblk0 V c 0 t) (iblk0 V c 1 t) (V c main_arg2) (V c main_arg4)
    (iblk0 V c 2 t) (iblk0 V c 4 t) (rowOf (V c main_v23)) (rowOf (iblk0 V c 3 t)) p _ q _ ?_ ?_ ?_ ?_ ?_
  · intro k
    show V c main_v22 (((cfg0.win 0).blk t).view.emb (ix2 p k)) = _
    refine congrArg (V c main_v22) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · intro k
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · intro k
    show V c main_arg2 (((cfg0.win 2).blk t).view.emb (ix2 k q)) = _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · intro k
    show V c main_arg4 (((cfg0.win 4).blk t).view.emb (ix2 k q)) = _
    refine congrArg (V c main_arg4) (funext fun a => Fin.ext ?_)
    match a with
    | ⟨0, _⟩ => show win0_4.index t (0 : Fin 2) * 128 + 1 * k.val = k.val; omega
    | ⟨1, _⟩ => show win0_4.index t (1 : Fin 2) * 128 + 1 * q.val = win0_5.index t (1 : Fin 2) * 128 + 1 * q.val; omega
  · show V c main_v23 (((cfg0.win 3).blk t).view.emb (ix2 (0 : Fin 1) q)) = _
    refine congrArg (V c main_v23) (funext fun a => Fin.ext ?_)
    match a with
    | ⟨0, _⟩ => show win0_3.index t (0 : Fin 2) * 1 + 1 * 0 = 0; omega
    | ⟨1, _⟩ => show win0_3.index t (1 : Fin 2) * 128 + 1 * q.val = win0_5.index t (1 : Fin 2) * 128 + 1 * q.val; omega

/-- An index lies in point t's block exactly when each coordinate lies in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- Row r lies in block r / 5000: the twenty blocks cover the array. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 5000 < 20 := by omega
  obtain ⟨t, ht⟩ : ∃ t : Fin cfg0.N, t.val = (i 0).val / 5000 := ⟨⟨(i 0).val / 5000, hlt⟩, rfl⟩
  obtain ⟨-, -, -, -, -, -, -, -, -, -, e5r, e5c⟩ := index_maps t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- After the region the output array holds the layer of the arrays the region found. -/
theorem layer_array (c : Dev nD) : (dat0 V c).arrAt 5 cfg0.N = result V c :=
  (dat0 V c).arrAt_eq_of_cover 5 (result V c) (fun t _ => written_back V c t) covered

end Cert.KernelIdeal.FirstRegion

end
-- ==== Proof.SecondRegion.lean ====
/-
  The output array of the second region.

  The region walks the same twenty blocks of 5000 rows. At block t it reads rows 5000·t … of the second neighbourhood means
  and of the first layer's array, the whole of two weight matrices and a bias row, and the whole of a third matrix U and a
  second row β; it forms the second layer h of its rows without storing it and writes  Σ_k h(p, k) · U(k, q) + β(0, q)  at
  local row p and column q. A row of the second layer depends on that row of the means and of the first layer only, and
  a row of the product on that row of the second layer only, so what block t writes back is rows 5000·t … of ONE array
  (`written_back`): at row r and column q, the second layer's row r times column q of U, plus β(0, q). The blocks cover the
  array (`covered`), which therefore ends holding it (`output_array`).
-/
import proofs.«175081_j81681688035648_1_alg».proof.Proof.Gen.KernelIdeal.Frame
import proofs.«175081_j81681688035648_1_alg».proof.Proof.KernelBodies

set_option maxRecDepth 16384

noncomputable section

namespace Cert.KernelIdeal.SecondRegion

open Cert.KernelIdeal Cert.KernelIdeal.Gen Cert.KernelIdeal.Bodies
open Idealize.ShloMosaic Idealize.ShloMosaic.TcCoe Idealize.ShloMosaic.ValueIdx Idealize.SL.Sem SideBySide
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The second layer of the arrays the region finds (never stored). -/
abbrev hidden (c : Dev nD) : Vec Ideal S100000x128 .f32 :=
  Sage.layer (V c main_v36) (V c main_v24) (V c main_arg5) (V c main_arg7) (rowOf (V c main_v40))

/-- The array the region writes: the second layer times the third matrix, plus the second row along every row. -/
def result (c : Dev nD) : Vec Ideal S100000x128 .f32 := fun j =>
  entry (hidden V c) (V c main_v37) (j 0) (j 1) + V c main_v39 (ix2 (0 : Fin 1) (j 1))

/-- The index maps over the grid: the two row-blocked inputs move with the output along the rows, at column block 0;
    every other input stays at block (0, 0); the output's row block is the point's number. -/
theorem index_maps : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What point t writes back is block t of that one array. -/
theorem written_back (c : Dev nD) (t : Fin cfg1.N) :
    (dat1 V c).flushed 7 t = ((cfg1.win 7).blk t).view.read (Elt Ideal) (result V c) := by
  show (cfg1.win 7).cut (grid1.coords t) ((dat1 V c).after 7 t) = _
  rw [after1_7]
  unfold out1_7
  rw [View.canon_unit_zero zero_offsets]
  simp only [View.ld_unit_zero (S := S5000x128) zero_offsets, View.ld_unit_zero (S := S128x128) zero_offsets,
    View.ld_unit_zero (S := S1x128) zero_offsets]
  obtain ⟨e0r, e0c, e1r, e1c, e2r, e2c, e3r, e3c, e4r, e4c, e5r, e5c, e6r, e6c, e7r, e7c⟩ := index_maps t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 4 t) (iblk1 V c 3 t) (iblk1 V c 5 t)
        (iblk1 V c 6 t) (ix2 p q)
      = entry (hidden V c) (V c main_v37) ((((cfg1.win 7).blk t).view.emb (ix2 p q)) 0)
          ((((cfg1.win 7).blk t).view.emb (ix2 p q)) 1)
        + V c main_v39 (ix2 (0 : Fin 1) ((((cfg1.win 7).blk t).view.emb (ix2 p q)) 1))
  refine (second_body_apply (iblk1 V c 0 t) (iblk1 V c 1 t) (iblk1 V c 2 t) (iblk1 V c 4 t) (iblk1 V c 3 t) (iblk1 V c 5 t)
    (iblk1 V c 6 t) p q).trans ?_
  refine congrArg₂ (· + ·) ?_ ?_
  · refine Sage.entry_blocks (hidden V c)
      (Sage.layer (iblk1 V c 0 t) (iblk1 V c 1 t) (iblk1 V c 2 t) (iblk1 V c 4 t) (rowOf (iblk1 V c 3 t)))
      (V c main_v37) (iblk1 V c 5 t) p _ q _ ?_ ?_
    · intro k
      show Sage.layerEntry (iblk1 V c 0 t) (iblk1 V c 1 t) (iblk1 V c 2 t) (iblk1 V c 4 t) (rowOf (iblk1 V c 3 t)) p k
        = Sage.layerEntry (V c main_v36) (V c main_v24) (V c main_arg5) (V c main_arg7) (rowOf (V c main_v40))
            ((((cfg1.win 7).blk t).view.emb (ix2 p q)) 0) k
      refine Sage.layerEntry_blocks (V c main_v36) (V c main_v24) (iblk1 V c 0 t) (iblk1 V c 1 t) (V c main_arg5)
        (V c main_arg7) (iblk1 V c 2 t) (iblk1 V c 4 t) (rowOf (V c main_v40)) (rowOf (iblk1 V c 3 t)) p _ k k ?_ ?_ ?_ ?_ ?_
      · intro k'
        show V c main_v36 (((cfg1.win 0).blk t).view.emb (ix2 p k')) = _
        refine congrArg (V c main_v36) (funext fun a => Fin.ext ?_)
        match a with
        | ⟨0, _⟩ => show win1_0.index t (0 : Fin 2) * 5000 + 1 * p.val = win1_7.index t (0 : Fin 2) * 5000 + 1 * p.val; omega
        | ⟨1, _⟩ => show win1_0.index t (1 : Fin 2) * 128 + 1 * k'.val = k'.val; omega
      · intro k'
        show V c main_v24 (((cfg1.win 1).blk t).view.emb (ix2 p k')) = _
        refine congrArg (V c main_v24) (funext fun a => Fin.ext ?_)
        match a with
        | ⟨0, _⟩ => show win1_1.index t (0 : Fin 2) * 5000 + 1 * p.val = win1_7.index t (0 : Fin 2) * 5000 + 1 * p.val; omega
        | ⟨1, _⟩ => show win1_1.index t (1 : Fin 2) * 128 + 1 * k'.val = k'.val; omega
      · intro k'
        show V c main_arg5 (((cfg1.win 2).blk t).view.emb (ix2 k' k)) = _
        refine congrArg (V c main_arg5) (funext fun a => Fin.ext ?_)
        match a with
        | ⟨0, _⟩ => show win1_2.index t (0 : Fin 2) * 128 + 1 * k'.val = k'.val; omega
        | ⟨1, _⟩ => show win1_2.index t (1 : Fin 2) * 128 + 1 * k.val = k.val; omega
      · intro k'
        show V c main_arg7 (((cfg1.win 4).blk t).view.emb (ix2 k' k)) = _
        refine congrArg (V c main_arg7) (funext fun a => Fin.ext ?_)
        match a with
        | ⟨0, _⟩ => show win1_4.index t (0 : Fin 2) * 128 + 1 * k'.val = k'.val; omega
        | ⟨1, _⟩ => show win1_4.index t (1 : Fin 2) * 128 + 1 * k.val = k.val; omega
      · show V c main_v40 (((cfg1.win 3).blk t).view.emb (ix2 (0 : Fin 1) k)) = _
        refine congrArg (V c main_v40) (funext fun a => Fin.ext ?_)
        match a with
        | ⟨0, _⟩ => show win1_3.index t (0 : Fin 2) * 1 + 1 * 0 = 0; omega
        | ⟨1, _⟩ => show win1_3.index t (1 : Fin 2) * 128 + 1 * k.val = k.val; omega
    · intro k
      show V c main_v37 (((cfg1.win 5).blk t).view.emb (ix2 k q)) = _
      refine congrArg (V c main_v37) (funext fun a => Fin.ext ?_)
      match a with
      | ⟨0, _⟩ => show win1_5.index t (0 : Fin 2) * 128 + 1 * k.val = k.val; omega
      | ⟨1, _⟩ => show win1_5.index t (1 : Fin 2) * 128 + 1 * q.val = win1_7.index t (1 : Fin 2) * 128 + 1 * q.val; omega
  · show V c main_v39 (((cfg1.win 6).blk t).view.emb (ix2 (0 : Fin 1) q)) = _
    refine congrArg (V c main_v39) (funext fun a => Fin.ext ?_)
    match a with
    | ⟨0, _⟩ => show win1_6.index t (0 : Fin 2) * 1 + 1 * 0 = 0; omega
    | ⟨1, _⟩ => show win1_6.index t (1 : Fin 2) * 128 + 1 * q.val = win1_7.index t (1 : Fin 2) * 128 + 1 * q.val; omega

/-- An index lies in point t's block exactly when each coordinate lies in the block's range on its axis. -/
theorem mem_block (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v41).slice (win1_7.rect t)).set ↔ _
  rw [View.set_slice_whole, Rect.mem_set_unit]
  exact Iff.rfl

/-- Row r lies in block r / 5000: the twenty blocks cover the array. -/
theorem covered (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hlt : (i 0).val / 5000 < 20 := by omega
  obtain ⟨t, ht⟩ : ∃ t : Fin cfg1.N, t.val = (i 0).val / 5000 := ⟨⟨(i 0).val / 5000, hlt⟩, rfl⟩
  obtain ⟨-, -, -, -, -, -, -, -, -, -, -, -, -, -, e7r, e7c⟩ := index_maps t
  refine ⟨t, flush1_7 t, ?_⟩
  rw [mem_block]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 128 ≤ (i 1).val ∧ (i 1).val < win1_7.index t (1 : Fin 2) * 128 + 128
    omega

/-- After the region the output array holds that one array of the arrays the region found. -/
theorem output_array (c : Dev nD) : (dat1 V c).arrAt 7 cfg1.N = result V c :=
  (dat1 V c).arrAt_eq_of_cover 7 (result V c) (fun t _ => written_back V c t) covered

end Cert.KernelIdeal.SecondRegion

end
-- ==== Proof.KernelValue.lean ====
/-
  The kernel program's result, as one function of its arguments.

  Before its first region the program forms, from the edge index alone, the source and the destination row of the edges
  (`src`, `dst`), the source indices with the negative ones wrapped by the number of nodes (`wrapped`), and each node's
  in-degree clipped below at one, laid along the features (`degree`); and, from a feature array X, the neighbourhood means
  (`means X`): the rows of X the wrapped sources name, summed into the destinations' rows and divided by the degree. Neither
  the gather nor the scatter-add is opened anywhere: the means are carried as this one function of (X, edge index).

  The first region's input arrays are the means of the node features, the node features, two weight matrices and the first
  bias as a one-row matrix; it leaves the first layer (`first_layer`). Between the regions the program forms the means of
  that first layer with the same source, destination and degree, pads the one-column final weights to a square matrix and the
  one-entry final bias to a row (zeros to the right), and casts the second bias to a one-row matrix. The second region leaves,
  at row r and column q, the second layer's row r times column q of the padded matrix plus entry q of the padded row; the
  program returns column 0 of that (`result_eq`).
-/
import proofs.«175081_j81681688035648_1_alg».proof.Proof.ValueRun
import proofs.«175081_j81681688035648_1_alg».proof.Proof.FirstRegion
import proofs.«175081_j81681688035648_1_alg».proof.Proof.SecondRegion
import Idealize.ShloMosaic.Lib.StableHlo.Run

set_option maxRecDepth 16384

noncomputable section

namespace Cert.KernelIdeal.Value

open Cert.KernelIdeal Cert.KernelIdeal.Gen Cert.KernelIdeal.Bodies
open Idealize.ShloMosaic Idealize.ShloMosaic.TcCoe Idealize.ShloMosaic.ValueIdx Idealize.SL.Sem Idealize.ShloMosaic.StableHlo
open SideBySide

/-- The edges' source nodes: row 0 of the edge index. -/
def src (ei : IVec S2x640000 32) : IVec S640000 32 := fun i =>
  shapeCast S640000 (extractStridedSlice S1x640000 ![0, 0] ei slices_S2x640000_S1x640000_0_0) shapeCasts_S1x640000_S640000 i

/-- The edges' destination nodes: row 1 of the edge index. -/
def dst (ei : IVec S2x640000 32) : IVec S640000 32 := fun i =>
  shapeCast S640000 (extractStridedSlice S1x640000 ![1, 0] ei slices_S2x640000_S1x640000_1_0) shapeCasts_S1x640000_S640000 i

/-- The source indices as a column, a negative one wrapped by the number of nodes. -/
def wrapped (ei : IVec S2x640000 32) : IVec S640000x1 32 :=
  broadcastInDim S640000x1 ![0] bcast_S640000_S640000x1_0
    (select (cmpi CmpIPredicate.slt (src ei) (broadcastInDim S640000 ![] bcast_S_S640000 (constantI S_ 32 0#32)))
      (addi (src ei) (broadcastInDim S640000 ![] bcast_S_S640000 (constantI S_ 32 100000#32))) (src ei))

/-- Each node's in-degree, clipped below at one, as a column. -/
def degreeColumn (ei : IVec S2x640000 32) : FVec Ideal S100000x1 .f32 :=
  broadcastInDim S100000x1 ![0] bcast_S100000_S100000x1_0
    (maximumf
      (Host.scatterAdd scatter_S100000_S640000x1_S640000_n_0_0_1
        (broadcastInDim S100000 ![] bcast_S_S100000 (constant S_ .f32 0x00000000#32))
        (broadcastInDim S640000x1 ![0] bcast_S640000_S640000x1_0 (dst ei))
        (broadcastInDim S640000 ![] bcast_S_S640000 (constant S_ .f32 0x3F800000#32)))
      (broadcastInDim S100000 ![] bcast_S_S100000 (constant S_ .f32 0x3F800000#32)))

/-- The neighbourhood means of a feature array: the rows the wrapped sources name, summed into the destinations' rows, over the
    degree. -/
def means (X : FVec Ideal S100000x128 .f32) (ei : IVec S2x640000 32) : FVec Ideal S100000x128 .f32 :=
  Host.divf
    (Host.scatterAdd scatter_S100000x128_S640000x1_S640000x128_1_0_0_1
      (broadcastInDim S100000x128 ![] bcast_S_S100000x128 (constant S_ .f32 0x00000000#32))
      (broadcastInDim S640000x1 ![0] bcast_S640000_S640000x1_0 (dst ei))
      (Host.gather gather_S100000x128_S640000x1_S640000x128_1_0_n_n_0_1_1128 X (wrapped ei)))
    (broadcastInDim S100000x128 ![0, 1] bcast_S100000x1_S100000x128_0_1 (degreeColumn ei))

variable (m : (ℓ : Loc nD τ sig) → Buf (Elt Ideal) ℓ) (ρ : Dev nD → PrngReg)

/-! ## The first region's entry contents -/

/-- A buffer of the first stretch, read off the launch memory. -/
theorem entry_means (c : Dev nD) :
    V1 m ρ c main_v22 = means (m ((c : Thread nD τ).loc main_arg0)) (m ((c : Thread nD τ).loc main_arg1)) := by
  show StableHlo.after hostOps0 (W0 m ρ c) (Proc.devRef .tc main_v22) = _
  after_results_simp
  rfl

theorem entry_src (c : Dev nD) : W1 m ρ c (Proc.devRef .tc main_v1) = src (m ((c : Thread nD τ).loc main_arg1)) := by
  show StableHlo.after hostOps0 (W0 m ρ c) (Proc.devRef .tc main_v1) = _
  after_results_simp
  rfl

theorem entry_dst (c : Dev nD) : W1 m ρ c (Proc.devRef .tc main_v3) = dst (m ((c : Thread nD τ).loc main_arg1)) := by
  show StableHlo.after hostOps0 (W0 m ρ c) (Proc.devRef .tc main_v3) = _
  after_results_simp
  rfl

theorem entry_degree (c : Dev nD) :
    W1 m ρ c (Proc.devRef .tc main_v10) = degreeColumn (m ((c : Thread nD τ).loc main_arg1)) := by
  show StableHlo.after hostOps0 (W0 m ρ c) (Proc.devRef .tc main_v10) = _
  after_results_simp
  rfl

theorem entry_bias (c : Dev nD) :
    V1 m ρ c main_v23 = fun i => shapeCast S1x128 (m ((c : Thread nD τ).loc main_arg3)) shapeCasts_S128_S1x128 i := by
  show StableHlo.after hostOps0 (W0 m ρ c) (Proc.devRef .tc main_v23) = _
  after_results_simp
  rfl

/-- An argument array the first stretch does not write. -/
theorem entry_arg0 (c : Dev nD) : V1 m ρ c main_arg0 = m ((c : Thread nD τ).loc main_arg0) := by
  show StableHlo.after hostOps0 (W0 m ρ c) (Proc.devRef .tc main_arg0) = _
  after_results_simp
theorem entry_arg2 (c : Dev nD) : V1 m ρ c main_arg2 = m ((c : Thread nD τ).loc main_arg2) := by
  show StableHlo.after hostOps0 (W0 m ρ c) (Proc.devRef .tc main_arg2) = _
  after_results_simp
theorem entry_arg4 (c : Dev nD) : V1 m ρ c main_arg4 = m ((c : Thread nD τ).loc main_arg4) := by
  show StableHlo.after hostOps0 (W0 m ρ c) (Proc.devRef .tc main_arg4) = _
  after_results_simp
theorem entry_arg5 (c : Dev nD) : W1 m ρ c (Proc.devRef .tc main_arg5) = m ((c : Thread nD τ).loc main_arg5) := by
  show StableHlo.after hostOps0 (W0 m ρ c) (Proc.devRef .tc main_arg5) = _
  after_results_simp
theorem entry_arg6 (c : Dev nD) : W1 m ρ c (Proc.devRef .tc main_arg6) = m ((c : Thread nD τ).loc main_arg6) := by
  show StableHlo.after hostOps0 (W0 m ρ c) (Proc.devRef .tc main_arg6) = _
  after_results_simp
theorem entry_arg7 (c : Dev nD) : W1 m ρ c (Proc.devRef .tc main_arg7) = m ((c : Thread nD τ).loc main_arg7) := by
  show StableHlo.after hostOps0 (W0 m ρ c) (Proc.devRef .tc main_arg7) = _
  after_results_simp
theorem entry_arg8 (c : Dev nD) : W1 m ρ c (Proc.devRef .tc main_arg8) = m ((c : Thread nD τ).loc main_arg8) := by
  show StableHlo.after hostOps0 (W0 m ρ c) (Proc.devRef .tc main_arg8) = _
  after_results_simp
theorem entry_arg9 (c : Dev nD) : W1 m ρ c (Proc.devRef .tc main_arg9) = m ((c : Thread nD τ).loc main_arg9) := by
  show StableHlo.after hostOps0 (W0 m ρ c) (Proc.devRef .tc main_arg9) = _
  after_results_simp

/-- Entry q of a vector cast to a one-row matrix. -/
theorem row_of_cast (b : FVec Ideal S128 .f32) (h : S128.ShapeCasts S1x128) (q : Fin 128) :
    rowOf (fun i => shapeCast S1x128 b h i) q = b (ix1 q) := by
  show shapeCast S1x128 b h (ix2 (0 : Fin 1) q) = b (ix1 q)
  refine shapeCast_apply b h (ix2 (0 : Fin 1) q) (ix1 q) ?_
  rw [Shape.rowMajor_val_two, Shape.rowMajor_val_one]
  show q.val = 0 * 128 + q.val
  omega

/-- The entries of a bias vector. -/
def entriesOf (b : FVec Ideal S128 .f32) : Fin 128 → EReal := fun q => b (ix1 q)

/-- The first layer, of the program's arguments. -/
def firstLayer (x : FVec Ideal S100000x128 .f32) (ei : IVec S2x640000 32) (Wl : FVec Ideal S128x128 .f32) (b : FVec Ideal S128 .f32)
    (Wr : FVec Ideal S128x128 .f32) : FVec Ideal S100000x128 .f32 :=
  Sage.layer (means x ei) x Wl Wr (entriesOf b)

/-- After the first region its output array holds the first layer. -/
theorem first_layer (c : Dev nD) :
    W2 m ρ c (Proc.devRef .tc main_v24)
      = firstLayer (m ((c : Thread nD τ).loc main_arg0)) (m ((c : Thread nD τ).loc main_arg1))
          (m ((c : Thread nD τ).loc main_arg2)) (m ((c : Thread nD τ).loc main_arg3)) (m ((c : Thread nD τ).loc main_arg4)) := by
  refine (W2_arr m ρ c 5).trans ?_
  rw [FirstRegion.layer_array (V1 m ρ) c]
  show Sage.layer (V1 m ρ c main_v22) (V1 m ρ c main_arg0) (V1 m ρ c main_arg2) (V1 m ρ c main_arg4) (rowOf (V1 m ρ c main_v23)) = _
  rw [entry_means, entry_arg0, entry_arg2, entry_arg4, entry_bias]
  unfold firstLayer
  refine congrArg (Sage.layer _ _ _ _) (funext fun q => ?_)
  exact row_of_cast _ _ q

/-! ## Between the regions

A buffer the first region does not own keeps across it what the first stretch left in it. -/

theorem across_src (c : Dev nD) : W2 m ρ c (Proc.devRef .tc main_v1) = src (m ((c : Thread nD τ).loc main_arg1)) :=
  (W2_of_ne m ρ c main_v1 (by decide)).trans (entry_src m ρ c)
theorem across_dst (c : Dev nD) : W2 m ρ c (Proc.devRef .tc main_v3) = dst (m ((c : Thread nD τ).loc main_arg1)) :=
  (W2_of_ne m ρ c main_v3 (by decide)).trans (entry_dst m ρ c)
theorem across_degree (c : Dev nD) : W2 m ρ c (Proc.devRef .tc main_v10) = degreeColumn (m ((c : Thread nD τ).loc main_arg1)) :=
  (W2_of_ne m ρ c main_v10 (by decide)).trans (entry_degree m ρ c)
theorem across_arg5 (c : Dev nD) : W2 m ρ c (Proc.devRef .tc main_arg5) = m ((c : Thread nD τ).loc main_arg5) :=
  (W2_of_ne m ρ c main_arg5 (by decide)).trans (entry_arg5 m ρ c)
theorem across_arg6 (c : Dev nD) : W2 m ρ c (Proc.devRef .tc main_arg6) = m ((c : Thread nD τ).loc main_arg6) :=
  (W2_of_ne m ρ c main_arg6 (by decide)).trans (entry_arg6 m ρ c)
theorem across_arg7 (c : Dev nD) : W2 m ρ c (Proc.devRef .tc main_arg7) = m ((c : Thread nD τ).loc main_arg7) :=
  (W2_of_ne m ρ c main_arg7 (by decide)).trans (entry_arg7 m ρ c)
theorem across_arg8 (c : Dev nD) : W2 m ρ c (Proc.devRef .tc main_arg8) = m ((c : Thread nD τ).loc main_arg8) :=
  (W2_of_ne m ρ c main_arg8 (by decide)).trans (entry_arg8 m ρ c)
theorem across_arg9 (c : Dev nD) : W2 m ρ c (Proc.devRef .tc main_arg9) = m ((c : Thread nD τ).loc main_arg9) :=
  (W2_of_ne m ρ c main_arg9 (by decide)).trans (entry_arg9 m ρ c)

/-! ## The second region's entry contents -/

/-- The second neighbourhood means are the means of the first region's output array, with the same sources, destinations
    and degree. -/
theorem second_means (c : Dev nD) :
    V7 m ρ c main_v36 = means (W2 m ρ c (Proc.devRef .tc main_v24)) (m ((c : Thread nD τ).loc main_arg1)) := by
  show StableHlo.after hostOps1_4 (StableHlo.after hostOps1_3 (StableHlo.after hostOps1_2 (StableHlo.after hostOps1_1
    (StableHlo.after hostOps1 (W2 m ρ c))))) (Proc.devRef .tc main_v36) = _
  after_results_simp
  rw [across_src, across_dst, across_degree]
  rfl

theorem second_features (c : Dev nD) : V7 m ρ c main_v24 = W2 m ρ c (Proc.devRef .tc main_v24) := by
  show StableHlo.after hostOps1_4 (StableHlo.after hostOps1_3 (StableHlo.after hostOps1_2 (StableHlo.after hostOps1_1
    (StableHlo.after hostOps1 (W2 m ρ c))))) (Proc.devRef .tc main_v24) = _
  after_results_simp <;> rfl

theorem second_left (c : Dev nD) : V7 m ρ c main_arg5 = m ((c : Thread nD τ).loc main_arg5) := by
  show StableHlo.after hostOps1_4 (StableHlo.after hostOps1_3 (StableHlo.after hostOps1_2 (StableHlo.after hostOps1_1
    (StableHlo.after hostOps1 (W2 m ρ c))))) (Proc.devRef .tc main_arg5) = _
  after_results_simp
  exact across_arg5 m ρ c

theorem second_right (c : Dev nD) : V7 m ρ c main_arg7 = m ((c : Thread nD τ).loc main_arg7) := by
  show StableHlo.after hostOps1_4 (StableHlo.after hostOps1_3 (StableHlo.after hostOps1_2 (StableHlo.after hostOps1_1
    (StableHlo.after hostOps1 (W2 m ρ c))))) (Proc.devRef .tc main_arg7) = _
  after_results_simp
  exact across_arg7 m ρ c

theorem second_bias (c : Dev nD) :
    V7 m ρ c main_v40 = fun i => shapeCast S1x128 (m ((c : Thread nD τ).loc main_arg6)) shapeCasts_S128_S1x128 i := by
  show StableHlo.after hostOps1_4 (StableHlo.after hostOps1_3 (StableHlo.after hostOps1_2 (StableHlo.after hostOps1_1
    (StableHlo.after hostOps1 (W2 m ρ c))))) (Proc.devRef .tc main_v40) = _
  after_results_simp
  rw [across_arg6]
  rfl

/-- The final weights padded to a square matrix: column 0 is the one column. -/
theorem padded_weights (c : Dev nD) (k : Fin 128) :
    V7 m ρ c main_v37 (ix2 k (0 : Fin 128)) = (m ((c : Thread nD τ).loc main_arg8)) (ix2 k (0 : Fin 1)) := by
  have e : V7 m ρ c main_v37 = pad S128x128 ![0, 0] ![0, 127] ![0, 0] (m ((c : Thread nD τ).loc main_arg8))
      (sitofp (F := Ideal) .f32 (constantI S_ 32 0#32)) pads_S128x1_S128x128_000_01270 h_S_ := by
    show StableHlo.after hostOps1_4 (StableHlo.after hostOps1_3 (StableHlo.after hostOps1_2 (StableHlo.after hostOps1_1
    (StableHlo.after hostOps1 (W2 m ρ c))))) (Proc.devRef .tc main_v37) = _
    after_results_simp
    simp only [TRef.ofBuf, TRef.toBuf, cast_eq]
    rw [across_arg8]
  rw [e]
  refine pad_apply_of_inside ![0, 0] ![0, 127] ![0, 0] _ _ pads_S128x1_S128x128_000_01270 h_S_ (ix2 k (0 : Fin 128))
    (ix2 k (0 : Fin 1)) ?_
  intro a
  match a with
  | ⟨0, _⟩ => show k.val = 0 + k.val * (0 + 1); omega
  | ⟨1, _⟩ => show (0 : Nat) = 0 + 0 * (0 + 1); rfl

/-- The one entry of a one-entry vector cast to a one-by-one matrix. -/
theorem entry_of_cast (β : FVec Ideal S1 .f32) (h : S1.ShapeCasts S1x1) :
    shapeCast S1x1 β h (ix2 (0 : Fin 1) (0 : Fin 1)) = β (ix1 (0 : Fin 1)) := by
  refine shapeCast_apply β h (ix2 (0 : Fin 1) (0 : Fin 1)) (ix1 (0 : Fin 1)) ?_
  rw [Shape.rowMajor_val_two, Shape.rowMajor_val_one]
  rfl

/-- The final bias padded to a row: entry 0 is the one entry. -/
theorem padded_bias (c : Dev nD) :
    V7 m ρ c main_v39 (ix2 (0 : Fin 1) (0 : Fin 128)) = (m ((c : Thread nD τ).loc main_arg9)) (ix1 (0 : Fin 1)) := by
  have e : V7 m ρ c main_v39 = pad S1x128 ![0, 0] ![0, 127] ![0, 0]
      (fun i => shapeCast S1x1 (m ((c : Thread nD τ).loc main_arg9)) shapeCasts_S1_S1x1 i)
      (sitofp (F := Ideal) .f32 (constantI S_ 32 0#32)) pads_S1x1_S1x128_000_01270 h_S_ := by
    show StableHlo.after hostOps1_4 (StableHlo.after hostOps1_3 (StableHlo.after hostOps1_2 (StableHlo.after hostOps1_1
    (StableHlo.after hostOps1 (W2 m ρ c))))) (Proc.devRef .tc main_v39) = _
    after_results_simp
    simp only [TRef.ofBuf, TRef.toBuf, cast_eq]
    rw [across_arg9]
    rfl
  rw [e]
  refine (pad_apply_of_inside ![0, 0] ![0, 127] ![0, 0] _ _ pads_S1x1_S1x128_000_01270 h_S_ (ix2 (0 : Fin 1) (0 : Fin 128))
    (ix2 (0 : Fin 1) (0 : Fin 1)) ?_).trans ?_
  · intro a
    match a with
    | ⟨0, _⟩ => show (0 : Nat) = 0 + 0 * (0 + 1); rfl
    | ⟨1, _⟩ => show (0 : Nat) = 0 + 0 * (0 + 1); rfl
  · exact entry_of_cast _ _

/-! ## The result -/

/-- The program's result as one function of its ten arguments: at node p, the second layer's row p times the one
    column of final weights, plus the one final bias; the second layer over the means of the first. -/
def program (x : FVec Ideal S100000x128 .f32) (ei : IVec S2x640000 32) (W1l : FVec Ideal S128x128 .f32) (b1 : FVec Ideal S128 .f32)
    (W1r W2l : FVec Ideal S128x128 .f32) (b2 : FVec Ideal S128 .f32) (W2r : FVec Ideal S128x128 .f32)
    (Wlin : FVec Ideal S128x1 .f32) (blin : FVec Ideal S1 .f32) : FVec Ideal S100000x1 .f32 := fun j =>
  entry (Sage.layer (means (firstLayer x ei W1l b1 W1r) ei) (firstLayer x ei W1l b1 W1r) W2l W2r (entriesOf b2)) Wlin (j 0) (j 1)
    + blin (ix1 (0 : Fin 1))

/-- The second layer the second region forms, of the program's arguments. -/
theorem second_hidden (c : Dev nD) :
    SecondRegion.hidden (V7 m ρ) c
      = Sage.layer (means (firstLayer (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)))
          (firstLayer (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg7))
          (entriesOf (m ((c : Thread nD τ).loc main_arg6))) := by
  show Sage.layer (V7 m ρ c main_v36) (V7 m ρ c main_v24) (V7 m ρ c main_arg5) (V7 m ρ c main_arg7) (rowOf (V7 m ρ c main_v40)) = _
  rw [second_means, second_features, second_left, second_right, second_bias, first_layer]
  refine congrArg (Sage.layer _ _ _ _) (funext fun q => ?_)
  exact row_of_cast _ _ q

/-- What the last stretch leaves in the result buffer is the program's function of the arguments as launched. -/
theorem result_eq (c : Dev nD) :
    W9 m ρ c (Proc.devRef .tc main_v42)
      = program (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have e : W9 m ρ c (Proc.devRef .tc main_v42)
      = extractStridedSlice S100000x1 ![0, 0] (W8 m ρ c (Proc.devRef .tc main_v41)) slices_S100000x128_S100000x1_0_0 := by
    show StableHlo.after hostOps2 (W8 m ρ c) (Proc.devRef .tc main_v42) = _
    after_results_simp <;> rfl
  have e8 : W8 m ρ c (Proc.devRef .tc main_v41) = SecondRegion.result (V7 m ρ) c :=
    (W8_arr m ρ c 7).trans (SecondRegion.output_array (V7 m ρ) c)
  rw [e, e8]
  funext j
  obtain ⟨p, z, rfl⟩ : ∃ (p : Fin 100000) (z : Fin 1), j = ix2 p z := ⟨j 0, j 1, eq_ix2 j⟩
  have hz : z = 0 := Subsingleton.elim _ _
  subst hz
  rw [extractStridedSlice_apply ![0, 0] _ slices_S100000x128_S100000x1_0_0 (ix2 p (0 : Fin 1)) (ix2 p (0 : Fin 128)) (fun a => by
    match a with
    | ⟨0, _⟩ => show p.val = 0 + p.val; omega
    | ⟨1, _⟩ => show (0 : Nat) = 0 + 0; rfl)]
  show entry (SecondRegion.hidden (V7 m ρ) c) (V7 m ρ c main_v37) p (0 : Fin 128) + V7 m ρ c main_v39 (ix2 (0 : Fin 1) (0 : Fin 128))
    = entry _ (m ((c : Thread nD τ).loc main_arg8)) p (0 : Fin 1) + (m ((c : Thread nD τ).loc main_arg9)) (ix1 (0 : Fin 1))
  rw [padded_bias, second_hidden, Sage.entry_column_zero _ (V7 m ρ c main_v37) (m ((c : Thread nD τ).loc main_arg8)) (0 : Fin 128) (padded_weights m ρ c) p]

end Cert.KernelIdeal.Value

end
-- ==== Proof.RefLayers.lean ====
/-
  The reference's layers and its final column, read at an entry, at the ideal values.

  The reference forms a layer on whole arrays: the product of the neighbourhood means with the left weights, plus the bias
  vector laid along every row, plus the product of the node features with the right weights, clipped below at zero. At node p
  and feature q that is the layer's entry with the bias added between the two products (`layer_term_apply`). Its two layer
  stages are such terms (`first_layer`, `second_layer`), the second over the first layer's array; what goes into either as
  neighbourhood means is not opened here.

  Its result is the product of the second layer with the one-column weight matrix plus the one-entry bias laid along the
  rows: at node p, Σ_c H(p, c) · w(c, 0) + β(0) (`result_apply`).
-/
import proofs.«175081_j81681688035648_1_alg».proof.Proof.Gen.ReferenceIdeal.Read
import proofs.«175081_j81681688035648_1_alg».proof.Proof.SageLayer
import Idealize.ShloMosaic.Lib.KernelVsHost
import Idealize.ShloMosaic.Lib.Pipeline.Value
import Idealize.ShloMosaic.Lib.ValueIdx

noncomputable section

namespace Cert.ReferenceIdeal.Layers

open Cert.ReferenceIdeal Cert.ReferenceIdeal.Gen Cert.ReferenceIdeal.Read
open Idealize.ShloMosaic Idealize.ShloMosaic.ValueIdx SideBySide

/-- The entries of a bias vector. -/
def entriesOf (b : FVec Ideal S128 .f32) : Fin 128 → EReal := fun q => b (ix1 q)

theorem dot_plain : dot_S100000x128_S128x128_S100000x128_1_0_0_1_n_n = DotDims.plain 100000 128 128 := rfl

theorem dot_plain_column : dot_S100000x128_S128x1_S100000x1_1_0_0_1_n_n = DotDims.plain 100000 128 1 := rfl

/-- A vector laid along a row and that row along every row, read at (p, q), is the vector's entry q. -/
theorem bias_apply (b : FVec Ideal S128 .f32) (h1 : S128.BroadcastsInDim S1x128 ![1])
    (h2 : S1x128.BroadcastsInDim S100000x128 ![0, 1]) (p : Fin 100000) (q : Fin 128) :
    broadcastInDim S100000x128 ![0, 1] h2 (broadcastInDim S1x128 ![1] h1 b) (ix2 p q) = b (ix1 q) := by
  rw [broadcastInDim_oneRow_apply h2 _ p q]
  refine broadcastInDim_apply ![1] h1 b (ix2 (0 : Fin 1) q) (ix1 q) ?_
  intro a
  match a with
  | ⟨0, _⟩ => show q.val = if (128 : Nat) = 1 then 0 else q.val; rw [if_neg (by decide)]

/-- The zero the reference clips at, broadcast to the array, is the real zero at every entry. -/
theorem clip_zero_apply (h : S_.BroadcastsInDim S100000x128 (![] : Fin 0 → Fin S100000x128.rank)) (i : S100000x128.Idx) :
    broadcastInDim S100000x128 ![] h (constant (F := Ideal) S_ .f32 0x00000000#32) i = 0 := by
  rw [broadcastInDim_constant, broadcast_apply]
  exact Ideal.ofBits_zero_f32

/-- A layer as the reference writes it, read at (p, q), is the layer's entry. -/
theorem layer_term_apply (A X : FVec Ideal S100000x128 .f32) (Wl Wr : FVec Ideal S128x128 .f32) (b : FVec Ideal S128 .f32)
    (h0 : S_.BroadcastsInDim S100000x128 (![] : Fin 0 → Fin S100000x128.rank))
    (h1 : S128.BroadcastsInDim S1x128 ![1]) (h2 : S1x128.BroadcastsInDim S100000x128 ![0, 1])
    (p : Fin 100000) (q : Fin 128) :
    maximumf (addf (addf (Host.dotGeneral dot_S100000x128_S128x128_S100000x128_1_0_0_1_n_n none A Wl)
        (broadcastInDim S100000x128 ![0, 1] h2 (broadcastInDim S1x128 ![1] h1 b)))
        (Host.dotGeneral dot_S100000x128_S128x128_S100000x128_1_0_0_1_n_n none X Wr))
      (broadcastInDim S100000x128 ![] h0 (constant (F := Ideal) S_ .f32 0x00000000#32)) (ix2 p q)
      = Sage.layerEntry A X Wl Wr (entriesOf b) p q := by
  rw [maximumf_apply, addf_apply, addf_apply, hostProduct_apply _ dot_plain, hostProduct_apply _ dot_plain, bias_apply,
    clip_zero_apply]
  exact Sage.layerEntry_bias_between A X Wl Wr (entriesOf b) p q

/-- The first layer stage is the layer of the first neighbourhood means and the node features. -/
theorem first_layer (x0 : FVec Ideal S100000x128 .f32) (x1 : IVec S2x640000 32) (x2 : FVec Ideal S128x128 .f32)
    (x3 : FVec Ideal S128 .f32) (x4 : FVec Ideal S128x128 .f32) :
    val_main_v29 (F := Ideal) x0 x1 x2 x3 x4 = Sage.layer (val_main_v22 (F := Ideal) x0 x1) x0 x2 x4 (entriesOf x3) := by
  funext j
  obtain ⟨p, q, rfl⟩ : ∃ (p : Fin 100000) (q : Fin 128), j = ix2 p q := ⟨j 0, j 1, eq_ix2 j⟩
  unfold val_main_v29 val_main_v28 val_main_v26 val_main_v23 val_main_v27 val_main_v25 val_main_v24 val_main_call0_v0
    val_main_call0_cst
  generalize val_main_v22 (F := Ideal) x0 x1 = A
  exact layer_term_apply A x0 x2 x4 x3 _ _ _ p q

/-- The second layer stage is the layer of the second neighbourhood means and the first layer's array. -/
theorem second_layer (x0 : FVec Ideal S100000x128 .f32) (x1 : IVec S2x640000 32) (x2 : FVec Ideal S128x128 .f32)
    (x3 : FVec Ideal S128 .f32) (x4 x5 : FVec Ideal S128x128 .f32) (x6 : FVec Ideal S128 .f32) (x7 : FVec Ideal S128x128 .f32) :
    val_main_v59 (F := Ideal) x0 x1 x2 x3 x4 x5 x6 x7
      = Sage.layer (val_main_v52 (F := Ideal) x0 x1 x2 x3 x4) (val_main_v29 (F := Ideal) x0 x1 x2 x3 x4) x5 x7 (entriesOf x6) := by
  funext j
  obtain ⟨p, q, rfl⟩ : ∃ (p : Fin 100000) (q : Fin 128), j = ix2 p q := ⟨j 0, j 1, eq_ix2 j⟩
  unfold val_main_v59 val_main_v58 val_main_v56 val_main_v53 val_main_v57 val_main_v55 val_main_v54 val_main_call1_v0
    val_main_call1_cst
  generalize val_main_v52 (F := Ideal) x0 x1 x2 x3 x4 = A
  generalize val_main_v29 (F := Ideal) x0 x1 x2 x3 x4 = H
  exact layer_term_apply A H x5 x7 x6 _ _ _ p q

/-- A one-entry vector laid along a one-entry row and that along every row, read at (p, 0), is the entry. -/
theorem last_bias_apply (β : FVec Ideal S1 .f32) (h1 : S1.BroadcastsInDim S1x1 ![1])
    (h2 : S1x1.BroadcastsInDim S100000x1 ![0, 1]) (p : Fin 100000) :
    broadcastInDim S100000x1 ![0, 1] h2 (broadcastInDim S1x1 ![1] h1 β) (ix2 p (0 : Fin 1)) = β (ix1 (0 : Fin 1)) := by
  rw [broadcastInDim_oneRow_apply h2 _ p (0 : Fin 1)]
  refine broadcastInDim_apply ![1] h1 β (ix2 (0 : Fin 1) (0 : Fin 1)) (ix1 (0 : Fin 1)) ?_
  intro a
  match a with
  | ⟨0, _⟩ => show (0 : Nat) = if (1 : Nat) = 1 then 0 else 0; rw [if_pos rfl]

/-- The reference's result at node p: the second layer's row p times the one weight column, plus the one bias entry. -/
theorem result_apply (x0 : FVec Ideal S100000x128 .f32) (x1 : IVec S2x640000 32) (x2 : FVec Ideal S128x128 .f32)
    (x3 : FVec Ideal S128 .f32) (x4 x5 : FVec Ideal S128x128 .f32) (x6 : FVec Ideal S128 .f32) (x7 : FVec Ideal S128x128 .f32)
    (x8 : FVec Ideal S128x1 .f32) (x9 : FVec Ideal S1 .f32) (p : Fin 100000) :
    val_main_v63 (F := Ideal) x0 x1 x2 x3 x4 x5 x6 x7 x8 x9 (ix2 p (0 : Fin 1))
      = entry (val_main_v59 (F := Ideal) x0 x1 x2 x3 x4 x5 x6 x7) x8 p (0 : Fin 1) + x9 (ix1 (0 : Fin 1)) := by
  unfold val_main_v63 val_main_v60 val_main_v62 val_main_v61
  generalize val_main_v59 (F := Ideal) x0 x1 x2 x3 x4 x5 x6 x7 = H
  rw [addf_apply, hostProduct_apply _ dot_plain_column, last_bias_apply]

end Cert.ReferenceIdeal.Layers

end
-- ==== Proof.Bridge.lean ====
/-
  The two programs compute one function of the ten arguments.

  Both form the neighbourhood means of a feature array by the same operations on the same edge index — the rows the wrapped
  sources name, summed into the destinations' rows, over the clipped in-degree — so the means are one function of (features,
  edge index) in both (`means_eq`), and the reference's second aggregation, which recomputes sources, destinations and degree
  from the edge index, is that function of the first layer's array (`second_means_eq`). Given that, both programs are: the
  first layer of (means of the features, features); the second layer of (means of the first layer, first layer); and at node p
  the second layer's row p times the one column of final weights plus the one final bias. The kernel program adds each layer's
  bias after both products and the reference between them, which is the same sum.
-/
import proofs.«175081_j81681688035648_1_alg».proof.Proof.KernelValue
import proofs.«175081_j81681688035648_1_alg».proof.Proof.RefLayers

noncomputable section

namespace Cert.Bridge

open Idealize.ShloMosaic Idealize.ShloMosaic.ValueIdx SideBySide
open Cert.ReferenceIdeal.Read Cert.ReferenceIdeal.Layers

variable (x0 : FVec Ideal Cert.ReferenceIdeal.S100000x128 .f32) (x1 : IVec Cert.ReferenceIdeal.S2x640000 32)
  (x2 : FVec Ideal Cert.ReferenceIdeal.S128x128 .f32) (x3 : FVec Ideal Cert.ReferenceIdeal.S128 .f32) (x4 x5 : FVec Ideal Cert.ReferenceIdeal.S128x128 .f32)
  (x6 : FVec Ideal Cert.ReferenceIdeal.S128 .f32) (x7 : FVec Ideal Cert.ReferenceIdeal.S128x128 .f32) (x8 : FVec Ideal Cert.ReferenceIdeal.S128x1 .f32)
  (x9 : FVec Ideal Cert.ReferenceIdeal.S1 .f32)

set_option maxHeartbeats 400000 in
/-- The neighbourhood means are one function of (features, edge index) in both programs. -/
theorem means_eq (X : FVec Ideal Cert.ReferenceIdeal.S100000x128 .f32) :
    Cert.KernelIdeal.Value.means X x1 = val_main_v22 (F := Ideal) X x1 := by
  unfold Cert.KernelIdeal.Value.means val_main_v22
  rfl

set_option maxHeartbeats 400000 in
/-- The reference's second aggregation is its first, of the first layer's array. -/
theorem second_means_eq :
    val_main_v52 (F := Ideal) x0 x1 x2 x3 x4 = val_main_v22 (F := Ideal) (val_main_v29 (F := Ideal) x0 x1 x2 x3 x4) x1 := by
  unfold val_main_v52 val_main_v43 val_main_v40 val_main_v22 val_main_v13 val_main_v10
  rfl

theorem entriesOf_eq (b : FVec Ideal Cert.ReferenceIdeal.S128 .f32) : Cert.KernelIdeal.Value.entriesOf b = entriesOf b := rfl

/-- The kernel program's first layer is the reference's first layer stage. -/
theorem first_eq : Cert.KernelIdeal.Value.firstLayer x0 x1 x2 x3 x4 = val_main_v29 (F := Ideal) x0 x1 x2 x3 x4 := by
  rw [first_layer, ← means_eq]
  rfl

/-- The kernel program's function of the arguments is the reference's last stage. -/
theorem program_eq :
    Cert.KernelIdeal.Value.program x0 x1 x2 x3 x4 x5 x6 x7 x8 x9 = val_main_v63 (F := Ideal) x0 x1 x2 x3 x4 x5 x6 x7 x8 x9 := by
  funext j
  obtain ⟨p, z, rfl⟩ : ∃ (p : Fin 100000) (z : Fin 1), j = ix2 p z := ⟨j 0, j 1, eq_ix2 j⟩
  have hz : z = 0 := Subsingleton.elim _ _
  subst hz
  rw [result_apply, second_layer, second_means_eq, ← means_eq, ← first_eq]
  rfl

end Cert.Bridge

end
-- ==== Proof.lean ====
/-
  Two stacked graph-convolution layers and a final linear column, as a two-region kernel program against a whole-array
  reference: the claims.

  Both programs take node features x (100000 × 128), an edge index (2 × 640000), two layers' weights and biases, and a final
  one-column weight and one-entry bias. With  means(X) = (rows of X named by the edges' wrapped sources, summed into the
  destinations' rows) / max(in-degree, 1)  and  layer(A, X) = max(A·Wl + X·Wr + b, 0),  both compute

      h1 = layer₁(means(x), x),   h2 = layer₂(means(h1), h1),   out = h2 · w + β   (one column).

  The kernel program forms means on the host, runs layer₁ as a region over twenty blocks of 5000 rows, forms means(h1) on
  the host, and runs a second region that forms layer₂ of its rows and at once multiplies by the final weights padded with
  zero columns to a square matrix and adds the final bias padded to a row; it returns column 0. Over the extended reals a
  row of a layer depends on that row of its inputs only, so the blocks of rows assemble to the whole-array layer; the narrowing
  of the products' factors to a shorter float format is the identity; a product into a zero block is the product; the bias
  may be added after both products or between them; and column 0 of the padded product reads column 0 of the padded matrix
  only, which is the one weight column. No entry is asked to be finite: only commutativity and associativity of the sum are used,
  so the precondition is not opened. The gather and the scatter-add are never opened either: they are the same operations on the
  same edge index in both programs.

  The frames of the two kernel programs are the generated ones; the reference's frame is its generated run with the result
  dropped. The idealized kernel differs from the kernel by no rewrite, so there is nothing to preserve.
-/
import proofs.«175081_j81681688035648_1_alg».proof.Defs
import proofs.«175081_j81681688035648_1_alg».proof.Proof.Gen.Kernel
import proofs.«175081_j81681688035648_1_alg».proof.Proof.Gen.Kernel.Frame
import proofs.«175081_j81681688035648_1_alg».proof.Proof.Gen.KernelIdeal
import proofs.«175081_j81681688035648_1_alg».proof.Proof.Gen.KernelIdeal.Frame
import proofs.«175081_j81681688035648_1_alg».proof.Proof.Gen.ReferenceIdeal
import proofs.«175081_j81681688035648_1_alg».proof.Proof.Gen.Pre_finite_inputs
import proofs.«175081_j81681688035648_1_alg».proof.Proof.Gen.ReferenceIdeal.Run
import proofs.«175081_j81681688035648_1_alg».proof.Proof.Gen.ReferenceIdeal.Read
import proofs.«175081_j81681688035648_1_alg».proof.Proof.ValueRun
import proofs.«175081_j81681688035648_1_alg».proof.Proof.KernelValue
import proofs.«175081_j81681688035648_1_alg».proof.Proof.Bridge

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference runs to its result with its arguments unchanged; the frame keeps the second half. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the ten arguments both programs end with the result buffer at one function of those
    arguments: the kernel program's by its run read back through its two regions, the reference's by its run read stage by
    stage, and the two functions are one. -/
theorem algebraic : Cert.algebraic_KernelIdeal_ReferenceIdeal := by
  intro m ρ m' ρ' _ hagree
  refine ⟨fun c => Cert.KernelIdeal.Value.program (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun _ h c => ⟨(h c).1.trans (Cert.KernelIdeal.Value.result_eq m ρ c), (h c).2⟩)
      (Cert.KernelIdeal.ValueRun.run_result m ρ)
  · refine (θ_run Cert.ReferenceIdeal.defs _ _).mono (fun _ h c => ⟨(h c).1.trans ?_, (h c).2⟩) (Cert.ReferenceIdeal.Value.run (F := Ideal) m' ρ')
    obtain ⟨h0, h1, h2, h3, h4, h5, h6, h7, h8, h9⟩ := hagree c
    rw [Cert.ReferenceIdeal.Read.val_main_v63_eq, h0, h1, h2, h3, h4, h5, h6, h7, h8, h9]
    exact (Cert.Bridge.program_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
